-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x11008 : Shape := ⟨3, ![1, 512, 11008]⟩
abbrev S4096x11008 : Shape := ⟨2, ![4096, 11008]⟩
abbrev S4096 : Shape := ⟨1, ![4096]⟩
abbrev S_ : Shape := ⟨0, ![]⟩

class Facts : Prop where
  bcast_S_S1x512x11008 : S_.BroadcastsInDim S1x512x11008 (![] : Fin 0 → Fin S1x512x11008.rank)
  reducesTo_S1x512x11008_S_d0_1_2 : S1x512x11008.ReducesTo [0, 1, 2] S_
  h_S_ : 0 < S_.numel
  bcast_S_S4096x11008 : S_.BroadcastsInDim S4096x11008 (![] : Fin 0 → Fin S4096x11008.rank)
  reducesTo_S4096x11008_S_d0_1 : S4096x11008.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1x512x11008 .f32) (main_arg1 : FVec F S4096x11008 .f32) (main_arg2 : FVec F S4096 .f32) : IVec S_ 1 :=
  let main_v0 : FVec F S1x512x11008 .f32 := Host.absf main_arg0
  let main_cst : FVec F S_ .f32 := constant S_ .f32 0x7F800000#32
  let main_v1 : FVec F S1x512x11008 .f32 := broadcastInDim S1x512x11008 ![] bcast_S_S1x512x11008 main_cst
  let main_v2 : IVec S1x512x11008 1 := cmpf .olt main_v0 main_v1
  let main_c : IVec S_ 1 := constantI S_ 1 1#1
  let main_v3 : IVec S_ 1 := (fun x v => Host.reduce IntOp.andi x v reducesTo_S1x512x11008_S_d0_1_2 h_S_) main_v2 main_c
  let main_v4 : FVec F S4096x11008 .f32 := Host.absf main_arg1
  let main_cst_0 : FVec F S_ .f32 := constant S_ .f32 0x7F800000#32
  let main_v5 : FVec F S4096x11008 .f32 := broadcastInDim S4096x11008 ![] bcast_S_S4096x11008 main_cst_0
  let main_v6 : IVec S4096x11008 1 := cmpf .olt main_v4 main_v5
  let main_c_1 : IVec S_ 1 := constantI S_ 1 1#1
  let main_v7 : IVec S_ 1 := (fun x v => Host.reduce IntOp.andi x v reducesTo_S4096x11008_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S1x512x11008 : Shape := ⟨3, ![1, 512, 11008]⟩
abbrev S4096x11008 : Shape := ⟨2, ![4096, 11008]⟩
abbrev S4096 : Shape := ⟨1, ![4096]⟩
abbrev S512x11008 : Shape := ⟨2, ![512, 11008]⟩
abbrev S1x4096 : Shape := ⟨2, ![1, 4096]⟩
abbrev S512x4096 : Shape := ⟨2, ![512, 4096]⟩
abbrev S128x11008 : Shape := ⟨2, ![128, 11008]⟩
abbrev S1x128 : Shape := ⟨2, ![1, 128]⟩
abbrev S512x128 : Shape := ⟨2, ![512, 128]⟩
abbrev S128x256 : Shape := ⟨2, ![128, 256]⟩
abbrev S512x256 : Shape := ⟨2, ![512, 256]⟩
abbrev S128x4x64 : Shape := ⟨3, ![128, 4, 64]⟩
abbrev S128x4 : Shape := ⟨2, ![128, 4]⟩
abbrev S128x4x1 : Shape := ⟨3, ![128, 4, 1]⟩
abbrev S1x512x4096 : Shape := ⟨3, ![1, 512, 4096]⟩

abbrev nBuf : Space → Nat
  | .hbm => 8
  | .vmem => 7
  | .smem => 0
  | _ => 0

abbrev bufTy : (tb : Table) → Fin (tcTables nBuf tb) → BufTy
  | .hbm, ⟨0, _⟩ => ⟨S1x512x11008, .f32⟩
  | .hbm, ⟨1, _⟩ => ⟨S4096x11008, .f32⟩
  | .hbm, ⟨2, _⟩ => ⟨S4096, .f32⟩
  | .hbm, ⟨3, _⟩ => ⟨S512x11008, .f32⟩
  | .hbm, ⟨4, _⟩ => ⟨S512x11008, .bf16⟩
  | .hbm, ⟨5, _⟩ => ⟨S1x4096, .f32⟩
  | .hbm, ⟨6, _⟩ => ⟨S512x4096, .f32⟩
  | .hbm, ⟨7, _⟩ => ⟨S1x512x4096, .f32⟩
  | .local _ .vmem, ⟨0, _⟩ => ⟨S512x11008, .bf16⟩
  | .local _ .vmem, ⟨1, _⟩ => ⟨S128x11008, .f32⟩
  | .local _ .vmem, ⟨2, _⟩ => ⟨S128x11008, .f32⟩
  | .local _ .vmem, ⟨3, _⟩ => ⟨S1x128, .f32⟩
  | .local _ .vmem, ⟨4, _⟩ => ⟨S1x128, .f32⟩
  | .local _ .vmem, ⟨5, _⟩ => ⟨S512x128, .f32⟩
  | .local _ .vmem, ⟨6, _⟩ => ⟨S512x128, .f32⟩
  | _, _ => ⟨S1x512x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c43_i32 : BitVec 32 := 43#32
  let v1 : BitVec 32 := Scalar.addi c0_i32 c43_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v8 : BitVec 32 := Scalar.muli arg5 c256_i32
  v8
def k0_off1 (k0_t1 : Fin k0_t1_loop.trips) : Fin 2 → Nat :=
  let c0_4 : Index := 0#32
  let c0_i32 : BitVec 32 := 0#32
  let c1_i32 : BitVec 32 := 1#32
  let arg5 : BitVec 32 := Scf.iv c0_i32 c1_i32 k0_t1
  let c256_i32 : BitVec 32 := 256#32
  let v8 : BitVec 32 := Scalar.muli arg5 c256_i32
  let v9 : BitVec 32 := v8
  let v10 : Index := Scalar.indexCast v9
  ![0, v10.toNat]
def k0_off2 (k0_t1 : Fin k0_t1_loop.trips) : Fin 2 → Nat :=
  let c0_5 : Index := 0#32
  let c0_i32 : BitVec 32 := 0#32
  let c1_i32 : BitVec 32 := 1#32
  let arg5 : BitVec 32 := Scf.iv c0_i32 c1_i32 k0_t1
  let c256_i32 : BitVec 32 := 256#32
  let v8 : BitVec 32 := Scalar.muli arg5 c256_i32
  let v9 : BitVec 32 := v8
  let v12 : Index := Scalar.indexCast v9
  ![0, v12.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x11008 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x512x11008_S512x11008 : S1x512x11008.ShapeCasts S512x11008
  bitsLt_bf16_f32 : FTy.bits .bf16 < FTy.bits .f32
  shapeCasts_S4096_S1x4096 : S4096.ShapeCasts S1x4096
  h_S128x256 : 0 < S128x256.numel
  h_S512x256 : 0 < S512x256.numel
  shapeCasts_S512x256_S512x256 : S512x256.ShapeCasts S512x256
  shapeCasts_S128x256_S128x4x64 : S128x256.ShapeCasts S128x4x64
  reduces_S128x4x64_S128x4 : S128x4x64.Reduces [2] S128x4
  shapeCasts_S128x4_S128x4x1 : S128x4.ShapeCasts S128x4x1
  broadcasts_S128x4x1_S128x4x64 : S128x4x1.Broadcasts S128x4x64
  shapeCasts_S128x4x64_S128x256 : S128x4x64.ShapeCasts S128x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S512x4096_S1x512x4096 : S512x4096.ShapeCasts S1x512x4096
  dot_S512x256_S128x256_S512x128_1_1_0_0_n_n_wf : DotDims.WF S512x256 S128x256 S512x128 [1] [1] [0] [0] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S128x256.size a ≤ S128x11008.size a
  k0_off2_inb : ∀ k0_t1 : Fin k0_t1_loop.trips, ∀ a, (k0_off2 k0_t1) a + S512x256.size a ≤ S512x11008.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x11008.size a ≤ S512x11008.size a
  hwx0_0 : ∀ i : grid0.Coords, EltTy.bits .bf16 = 32 ∨ (Rect.block (s := S512x11008) S512x11008.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x11008.size a ≤ S4096x11008.size a
  hwx0_1 : ∀ i : grid0.Coords, EltTy.bits .f32 = 32 ∨ (Rect.block (s := S4096x11008) S128x11008.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x4096.size a
  hwx0_2 : ∀ i : grid0.Coords, EltTy.bits .f32 = 32 ∨ (Rect.block (s := S1x4096) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x4096.size a
  hwx0_3 : ∀ i : grid0.Coords, EltTy.bits .f32 = 32 ∨ (Rect.block (s := S512x4096) S512x128.size (cc0_transform_3 i) (hinb0_3 i)).WholeWords (EltTy.packing .f32)

variable [Facts₀]

def dot_S512x256_S128x256_S512x128_1_1_0_0_n_n : DotDims S512x256 S128x256 S512x128 where
  lhsContracting := [1]
  rhsContracting := [1]
  lhsNonContracting := [0]
  rhsNonContracting := [0]
  lhsBatch := []
  rhsBatch := []
  wf := dot_S512x256_S128x256_S512x128_1_1_0_0_n_n_wf

abbrev win0_0 : Pipeline.Window sig grid0 :=
  Pipeline.Window.ofSpec (Memref.whole main_v1) S512x11008.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x11008.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x512x11008 : Shape := ⟨3, ![1, 512, 11008]⟩
abbrev S4096x11008 : Shape := ⟨2, ![4096, 11008]⟩
abbrev S4096 : Shape := ⟨1, ![4096]⟩
abbrev S704512x64 : Shape := ⟨2, ![704512, 64]⟩
abbrev S_ : Shape := ⟨0, ![]⟩
abbrev S704512 : Shape := ⟨1, ![704512]⟩
abbrev S704512x1 : Shape := ⟨2, ![704512, 1]⟩
abbrev S1x512x4096 : Shape := ⟨3, ![1, 512, 4096]⟩
abbrev S1x1x4096 : Shape := ⟨3, ![1, 1, 4096]⟩

abbrev nBuf : Space → Nat
  | .hbm => 42
  | .vmem => 0
  | .smem => 0
  | _ => 0

abbrev bufTy : (tb : Table) → Fin (tcTables nBuf tb) → BufTy
  | .hbm, ⟨0, _⟩ => ⟨S1x512x11008, .f32⟩
  | .hbm, ⟨1, _⟩ => ⟨S4096x11008, .f32⟩
  | .hbm, ⟨2, _⟩ => ⟨S4096, .f32⟩
  | .hbm, ⟨3, _⟩ => ⟨S704512x64, .f32⟩
  | .hbm, ⟨4, _⟩ => ⟨S_, .f32⟩
  | .hbm, ⟨5, _⟩ => ⟨S704512, .f32⟩
  | .hbm, ⟨6, _⟩ => ⟨S704512x1, .f32⟩
  | .hbm, ⟨7, _⟩ => ⟨S_, .f32⟩
  | .hbm, ⟨8, _⟩ => ⟨S704512, .f32⟩
  | .hbm, ⟨9, _⟩ => ⟨S704512x1, .f32⟩
  | .hbm, ⟨10, _⟩ => ⟨S704512x1, .f32⟩
  | .hbm, ⟨11, _⟩ => ⟨S_, .f32⟩
  | .hbm, ⟨12, _⟩ => ⟨S704512x1, .f32⟩
  | .hbm, ⟨13, _⟩ => ⟨S704512x1, .f32⟩
  | .hbm, ⟨14, _⟩ => ⟨S_, .f32⟩
  | .hbm, ⟨15, _⟩ => ⟨S704512x1, .f32⟩
  | .hbm, ⟨16, _⟩ => ⟨S704512x1, .f32⟩
  | .hbm, ⟨17, _⟩ => ⟨S704512x1, .f32⟩
  | .hbm, ⟨18, _⟩ => ⟨S704512x1, .f32⟩
  | .hbm, ⟨19, _⟩ => ⟨S704512x1, .f32⟩
  | .hbm, ⟨20, _⟩ => ⟨S704512x64, .f32⟩
  | .hbm, ⟨21, _⟩ => ⟨S704512x64, .f32⟩
  | .hbm, ⟨22, _⟩ => ⟨S704512x64, .f32⟩
  | .hbm, ⟨23, _⟩ => ⟨S704512x64, .f32⟩
  | .hbm, ⟨24, _⟩ => ⟨S704512x64, .f32⟩
  | .hbm, ⟨25, _⟩ => ⟨S_, .i32⟩
  | .hbm, ⟨26, _⟩ => ⟨S_, .i32⟩
  | .hbm, ⟨27, _⟩ => ⟨S_, .f32⟩
  | .hbm, ⟨28, _⟩ => ⟨S704512x64, .f32⟩
  | .hbm, ⟨29, _⟩ => ⟨S704512x64, .f32⟩
  | .hbm, ⟨30, _⟩ => ⟨S_, .f32⟩
  | .hbm, ⟨31, _⟩ => ⟨S704512x64, .f32⟩
  | .hbm, ⟨32, _⟩ => ⟨S704512x64, .f32⟩
  | .hbm, ⟨33, _⟩ => ⟨S704512x64, .f32⟩
  | .hbm, ⟨34, _⟩ => ⟨S704512x64, .f32⟩
  | .hbm, ⟨35, _⟩ => ⟨S704512x64, .f32⟩
  | .hbm, ⟨36, _⟩ => ⟨S704512x64, .f32⟩
  | .hbm, ⟨37, _⟩ => ⟨S4096x11008, .f32⟩
  | .hbm, ⟨38, _⟩ => ⟨S1x512x4096, .f32⟩
  | .hbm, ⟨39, _⟩ => ⟨S1x1x4096, .f32⟩
  | .hbm, ⟨40, _⟩ => ⟨S1x512x4096, .f32⟩
  | .hbm, ⟨41, _⟩ => ⟨S1x512x4096, .f32⟩
  | _, _ => ⟨S1x512x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_c_3 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  shapeCasts_S4096x11008_S704512x64 : S4096x11008.ShapeCasts S704512x64
  reducesTo_S704512x64_S704512_d1 : S704512x64.ReducesTo [1] S704512
  h_S_ : 0 < S_.numel
  bcast_S704512_S704512x1_0 : S704512.BroadcastsInDim S704512x1 (![0] : Fin 1 → Fin S704512x1.rank)
  bcast_S_S704512x1 : S_.BroadcastsInDim S704512x1 (![] : Fin 0 → Fin S704512x1.rank)
  bcast_S704512x1_S704512x64_0_1 : S704512x1.BroadcastsInDim S704512x64 (![0, 1] : Fin 2 → Fin S704512x64.rank)
  bcast_S_S704512x64 : S_.BroadcastsInDim S704512x64 (![] : Fin 0 → Fin S704512x64.rank)
  shapeCasts_S704512x64_S4096x11008 : S704512x64.ShapeCasts S4096x11008
  bcast_S4096_S1x1x4096_2 : S4096.BroadcastsInDim S1x1x4096 (![2] : Fin 1 → Fin S1x1x4096.rank)
  bcast_S1x1x4096_S1x512x4096_0_1_2 : S1x1x4096.BroadcastsInDim S1x512x4096 (![0, 1, 2] : Fin 3 → Fin S1x512x4096.rank)
  dot_S1x512x11008_S4096x11008_S1x512x4096_2_1_01_0_n_n_wf : DotDims.WF S1x512x11008 S4096x11008 S1x512x4096 [2] [1] [0, 1] [0] [] []

variable [Facts₀]

def dot_S1x512x11008_S4096x11008_S1x512x4096_2_1_01_0_n_n : DotDims S1x512x11008 S4096x11008 S1x512x4096 where
  lhsContracting := [2]
  rhsContracting := [1]
  lhsNonContracting := [0, 1]
  rhsNonContracting := [0]
  lhsBatch := []
  rhsBatch := []
  wf := dot_S1x512x11008_S4096x11008_S1x512x4096_2_1_01_0_n_n_wf

class Facts : Prop extends Facts₀ where

variable [Facts]
-- ==== Proof.Spec.lean ====
/-
  Group-wise fake quantisation of a weight row, and the linear layer over the quantised weight, as functions on the
  extended reals.

  A row is cut into groups of 64 consecutive entries. A group with smallest entry l and largest entry h has the step
  s = max (h − l) ε / 15 and the zero point z = round (−l / s). An entry v of the group is replaced by
  (clamp (round (v / s) + z) to [0, 15] − z) · s, rounding to nearest with ties to even. The layer's output at
  (row p of x, output feature n) is the sum over j of x(p, j) · (quantised weight)(n, j), plus the bias at n.

  Three facts join two ways of computing this. A chunk of a row that starts at a multiple of 64 is quantised as the
  row is, entry for entry, because its groups are groups of the row. A sum over 11008 = 43 · 256 entries is the sum
  over 43 chunks of the sums over their 256 entries: addition of extended reals is commutative and associative, so
  no finiteness is needed. And 0 − l = −l on the extended reals.
-/
import Idealize.ShloMosaic.PureOps.Ideal
import Idealize.ShloMosaic.PureOps.Ideal.Laws
import Idealize.ShloMosaic.Lib.ValueIdx

noncomputable section

open scoped BigOperators

namespace Cert.QLin

open Idealize.ShloMosaic Idealize.ShloMosaic.ValueIdx

/-! ## One group -/

/-- The smallest of the 64 entries of `row` from position `s` on, folded from +∞. -/
def lo (row : ℕ → EReal) (s : ℕ) : EReal :=
  (Finset.univ : Finset (Fin 64)).fold min (Ideal.ofBits .f32 0x7F800000#32) (fun e => row (s + e.val))

/-- The largest of the 64 entries of `row` from position `s` on, folded from −∞. -/
def hi (row : ℕ → EReal) (s : ℕ) : EReal :=
  (Finset.univ : Finset (Fin 64)).fold max (Ideal.ofBits .f32 0xFF800000#32) (fun e => row (s + e.val))

/-- Rounding to the nearest integer, ties to even; the infinities are fixed. -/
def rnd (x : EReal) : EReal := Ideal.liftRound Ideal.roundHalfEven x

/-- The quantisation step of a group with extremes `l` and `h`: max (h − l) ε / 15. -/
def step (l h : EReal) : EReal :=
  Ideal.div (max (h - l) (Ideal.ofBits .f32 0x3727C5AC#32)) (Ideal.ofBits .f32 0x41700000#32)

/-- The zero point of the group: round (−l / step). -/
def zpt (l h : EReal) : EReal := rnd (Ideal.div (-l) (step l h))

/-- An entry `v` of a group with extremes `l`, `h`, quantised to sixteen levels and mapped back. -/
def fq (l h v : EReal) : EReal :=
  (min (Ideal.ofBits .f32 0x41700000#32) (max (Ideal.ofBits .f32 0x00000000#32) (rnd (Ideal.div v (step l h)) + zpt l h))
    - zpt l h) * step l h

/-- Entry `j` of a row after group-wise fake quantisation: the group of `j` starts at 64 · (j / 64). -/
def qrow (row : ℕ → EReal) (j : ℕ) : EReal :=
  fq (lo row (64 * (j / 64))) (hi row (64 * (j / 64))) (row j)

/-- A chunk starting at a multiple of 64 is quantised as the row is. -/
theorem qrow_shift (row : ℕ → EReal) (a j : ℕ) :
    qrow (fun k => row (64 * a + k)) j = qrow row (64 * a + j) := by
  have hg : 64 * ((64 * a + j) / 64) = 64 * a + 64 * (j / 64) := by omega
  unfold qrow lo hi
  rw [hg]
  simp only [Nat.add_assoc]

/-! ## Rows of a matrix -/

/-- Row `n` of a matrix as a function of the column number (zero past the last column). -/
def rowOf {A B : ℕ} (w : (⟨2, ![A, B]⟩ : Shape).Idx → EReal) (n : Fin A) : ℕ → EReal :=
  fun j => if h : j < B then w (ix2 n ⟨j, h⟩) else 0

theorem rowOf_lt {A B : ℕ} (w : (⟨2, ![A, B]⟩ : Shape).Idx → EReal) (n : Fin A) (j : ℕ) (h : j < B) :
    rowOf w n j = w (ix2 n ⟨j, h⟩) := dif_pos h

/-! ## The layer -/

/-- The layer at row `p` of x and output feature `n`: the sum over j of x(0, p, j) times the quantised weight at (n, j),
    plus the bias at n. -/
def out (x : (⟨3, ![1, 512, 11008]⟩ : Shape).Idx → EReal) (w : (⟨2, ![4096, 11008]⟩ : Shape).Idx → EReal)
    (b : (⟨1, ![4096]⟩ : Shape).Idx → EReal) (p : Fin 512) (n : Fin 4096) : EReal :=
  (∑ j : Fin 11008, x (ix3 (0 : Fin 1) p j) * qrow (rowOf w n) j.val) + b (ix1 n)

/-- The layer's whole result, over the index of a [1, 512, 4096] array. -/
def G (x : (⟨3, ![1, 512, 11008]⟩ : Shape).Idx → EReal) (w : (⟨2, ![4096, 11008]⟩ : Shape).Idx → EReal)
    (b : (⟨1, ![4096]⟩ : Shape).Idx → EReal) : (⟨3, ![1, 512, 4096]⟩ : Shape).Idx → EReal :=
  fun i => out x w b (i 1) (i 2)

/-! ## The constants -/

/-- The word of 15.0 is the real 15. -/
theorem ofBits_fifteen : Ideal.ofBits .f32 0x41700000#32 = ((15 : ℝ) : EReal) := by
  simp [Ideal.ofBits, Ideal.ieee, -EReal.coe_mul]; norm_num

/-- The integer word 15 converted to a float is the real 15. -/
theorem toInt_fifteen : ((((15#32 : BitVec 32).toInt : ℤ) : ℝ) : EReal) = ((15 : ℝ) : EReal) := by
  have : (15#32 : BitVec 32).toInt = 15 := by decide
  rw [this]; norm_num

/-- The integer word 0 converted to a float is 0. -/
theorem toInt_zero : ((((0#32 : BitVec 32).toInt : ℤ) : ℝ) : EReal) = 0 := by
  have : (0#32 : BitVec 32).toInt = 0 := by decide
  rw [this]; simp

/-- Subtracting from zero is negation, at the infinities too. -/
theorem zero_sub_ereal (x : EReal) : (0 : EReal) - x = -x := by
  rw [sub_eq_add_neg, zero_add]

/-! ## Sums -/

/-- A sum over 11008 positions is the sum over 43 chunks of the sums over their 256 positions. -/
theorem sum_chunks (f : ℕ → EReal) :
    (∑ c : Fin 43, ∑ k : Fin 256, f (256 * c.val + k.val)) = ∑ j : Fin 11008, f j.val := by
  rw [← Fintype.sum_prod_type' (f := fun (c : Fin 43) (k : Fin 256) => f (256 * c.val + k.val))]
  rw [← Equiv.sum_comp (finProdFinEquiv (m := 43) (n := 256)) (fun j : Fin (43 * 256) => f j.val)]
  refine Finset.sum_congr rfl fun x _ => ?_
  simp only [finProdFinEquiv_apply_val]
  congr 1; omega

end Cert.QLin

end
-- ==== Proof.RefIsG.lean ====
/-
  The reference computation of the linear layer over a group-wise quantised weight, read entry by entry.

  The weight, 4096 rows of 11008 entries, is laid out row-major as 704512 rows of 64 entries. Since 11008 = 172 · 64,
  row n·172 + g of that layout is exactly group g of row n of the weight: entry e of it is entry 64·g + e of row n, and
  no group straddles two rows. The minimum and the maximum taken along a row of the layout are therefore the folds of
  min from +∞ and of max from −∞ over the 64 entries of one group. Every later stage acts entry by entry with these two
  extremes: the step max (h − l) ε / 15, the zero point round (−l / step), and the clamp of round (v / step) + zero
  point to [0, 15], where the integer bounds 0 and 15 convert exactly to the reals 0 and 15. Laid back out as 4096 rows
  of 11008 entries, entry (n, j) is entry j of row n after quantisation. The contraction with x over j and the bias
  added at n then give the layer.
-/
import proofs.«167469_j43654047597182_1_alg».proof.Proof.Gen.ReferenceIdeal.Read
import proofs.«167469_j43654047597182_1_alg».proof.Proof.Spec
import Idealize.ShloMosaic.Lib.ValueIdx
import Idealize.ShloMosaic.PureOps.Reduce
import Idealize.ShloMosaic.PureOps.Ideal.Laws

noncomputable section
namespace Cert.QLin.Ref
open Idealize.ShloMosaic Idealize.ShloMosaic.ValueIdx Cert.ReferenceIdeal Cert.ReferenceIdeal.Read

/-! The weight matrix, reshaped row-major to 704512 rows of 64 entries, has as its row n·172 + g the group g of row n of
    the matrix. The minimum and the maximum over a reshaped row are therefore the extremes of that group, and every
    later stage acts entry by entry with the group's two extremes. -/

/-- The fact that removing axis 1 of a [704512, 64] array leaves a [704512] array. -/
theorem red : S704512x64.Reduces [1] S704512 := by decide

/-- Inserting column e into the reduced index R gives the index (R, e). -/
theorem lift_row (h : S704512x64.Reduces [1] S704512) (R : Fin 704512) (k : Fin (S704512x64.size 1)) :
    h.lift (ix1 R) k = ix2 R (⟨k.val, k.isLt⟩ : Fin 64) := by
  funext c; apply Fin.ext
  fin_cases c <;> rfl

set_option maxRecDepth 8192 in
/-- The minimum over axis 1, at row R, is the fold of min from +∞ over the 64 entries of the row. -/
theorem v1_fold (x1 : (⟨S4096x11008, .f32⟩ : BufTy).Contents (Elt Ideal)) (R : Fin 704512) :
    val_main_v1 (F := Ideal) x1 (ix1 R)
      = (Finset.univ : Finset (Fin 64)).fold min (Ideal.ofBits .f32 0x7F800000#32) (fun e => val_main_v0 (F := Ideal) x1 (ix2 R e)) := by
  unfold val_main_v1
  have key := @Host.reduce_eq_fold_single (Ideal .f32) S704512x64 S704512 (1 : Fin 2) S_ FloatOps.minimumf _ _ (val_main_v0 (F := Ideal) x1) (val_main_cst (F := Ideal)) Gen.reducesTo_S704512x64_S704512_d1 red Gen.h_S_ (ix1 R)
  refine key.trans ?_
  have hf : (val_main_v0 (F := Ideal) x1 ∘ red.lift (ix1 R)) = fun e : Fin 64 => val_main_v0 (F := Ideal) x1 (ix2 R e) :=
    funext fun k => congrArg (val_main_v0 (F := Ideal) x1) (lift_row red R k)
  exact congrArg (fun f => Finset.fold min (Ideal.ofBits .f32 0x7F800000#32) f (Finset.univ : Finset (Fin 64))) hf

set_option maxRecDepth 8192 in
/-- The maximum over axis 1, at row R, is the fold of max from −∞ over the 64 entries of the row. -/
theorem v3_fold (x1 : (⟨S4096x11008, .f32⟩ : BufTy).Contents (Elt Ideal)) (R : Fin 704512) :
    val_main_v3 (F := Ideal) x1 (ix1 R)
      = (Finset.univ : Finset (Fin 64)).fold max (Ideal.ofBits .f32 0xFF800000#32) (fun e => val_main_v0 (F := Ideal) x1 (ix2 R e)) := by
  unfold val_main_v3
  have key := @Host.reduce_eq_fold_single (Ideal .f32) S704512x64 S704512 (1 : Fin 2) S_ FloatOps.maximumf _ _ (val_main_v0 (F := Ideal) x1) (val_main_cst_0 (F := Ideal)) Gen.reducesTo_S704512x64_S704512_d1 red Gen.h_S_ (ix1 R)
  refine key.trans ?_
  have hf : (val_main_v0 (F := Ideal) x1 ∘ red.lift (ix1 R)) = fun e : Fin 64 => val_main_v0 (F := Ideal) x1 (ix2 R e) :=
    funext fun k => congrArg (val_main_v0 (F := Ideal) x1) (lift_row red R k)
  exact congrArg (fun f => Finset.fold max (Ideal.ofBits .f32 0xFF800000#32) f (Finset.univ : Finset (Fin 64))) hf

/-- Entry e of reshaped row n·172 + g is entry 64·g + e of row n of the matrix. -/
theorem v0_at (x1 : (⟨S4096x11008, .f32⟩ : BufTy).Contents (Elt Ideal)) (n : Fin 4096) (g : Fin 172) (e : Fin 64)
    (hR : n.val * 172 + g.val < 704512) :
    val_main_v0 (F := Ideal) x1 (ix2 (⟨n.val * 172 + g.val, hR⟩ : Fin 704512) e)
      = rowOf (A := 4096) (B := 11008) x1 n (64 * g.val + e.val) := by
  have hn := n.isLt
  have hg := g.isLt
  have he := e.isLt
  rw [val_main_v0_apply, rowOf_lt (A := 4096) (B := 11008) x1 n _ (by omega)]
  refine congrArg x1 ?_
  funext a
  match a with
  | ⟨0, _⟩ => apply Fin.ext; show ((n.val * 172 + g.val) * 64 + e.val) / 11008 = n.val; omega
  | ⟨1, _⟩ => apply Fin.ext; show ((n.val * 172 + g.val) * 64 + e.val) % 11008 = 64 * g.val + e.val; omega

/-- The minimum of reshaped row n·172 + g is the smallest entry of group g of row n. -/
theorem v1_at (x1 : (⟨S4096x11008, .f32⟩ : BufTy).Contents (Elt Ideal)) (n : Fin 4096) (g : Fin 172)
    (hR : n.val * 172 + g.val < 704512) :
    val_main_v1 (F := Ideal) x1 (ix1 (⟨n.val * 172 + g.val, hR⟩ : Fin 704512))
      = lo (rowOf (A := 4096) (B := 11008) x1 n) (64 * g.val) := by
  rw [v1_fold]
  unfold lo
  exact congrArg (fun f => Finset.fold min (Ideal.ofBits .f32 0x7F800000#32) f (Finset.univ : Finset (Fin 64)))
    (funext fun e => v0_at x1 n g e hR)

/-- The maximum of reshaped row n·172 + g is the largest entry of group g of row n. -/
theorem v3_at (x1 : (⟨S4096x11008, .f32⟩ : BufTy).Contents (Elt Ideal)) (n : Fin 4096) (g : Fin 172)
    (hR : n.val * 172 + g.val < 704512) :
    val_main_v3 (F := Ideal) x1 (ix1 (⟨n.val * 172 + g.val, hR⟩ : Fin 704512))
      = hi (rowOf (A := 4096) (B := 11008) x1 n) (64 * g.val) := by
  rw [v3_fold]
  unfold hi
  exact congrArg (fun f => Finset.fold max (Ideal.ofBits .f32 0xFF800000#32) f (Finset.univ : Finset (Fin 64)))
    (funext fun e => v0_at x1 n g e hR)

/-! The stages between the two reductions and the second reshape, read at an index. -/

/-- The step of the group of reshaped row K₀. -/
theorem v9_at (x1 : (⟨S4096x11008, .f32⟩ : BufTy).Contents (Elt Ideal)) (K : S704512x1.Idx) :
    val_main_v9 (F := Ideal) x1 K
      = step (val_main_v1 (F := Ideal) x1 (idx_main_v2 K)) (val_main_v3 (F := Ideal) x1 (idx_main_v4 K)) := by
  rw [val_main_v9_apply, val_main_v7_apply, val_main_v5_apply, val_main_v4_apply, val_main_v2_apply, val_main_v6_apply,
    val_main_v8_apply]
  rfl

/-- The zero point of the group of reshaped row K₀. -/
theorem v12_at (x1 : (⟨S4096x11008, .f32⟩ : BufTy).Contents (Elt Ideal)) (K : S704512x1.Idx) :
    val_main_v12 (F := Ideal) x1 K
      = zpt (val_main_v1 (F := Ideal) x1 (idx_main_v2 K)) (val_main_v3 (F := Ideal) x1 (idx_main_v4 K)) := by
  rw [val_main_v12_apply, val_main_v11_apply, val_main_v10_apply, val_main_v2_apply, v9_at]
  rfl

/-- The integer 15 converted is the word of 15.0. -/
theorem sitofp_fifteen : FloatOps.sitofp (F := Ideal) .f32 (15#32 : BitVec 32) = Ideal.ofBits .f32 0x41700000#32 :=
  toInt_fifteen.trans ofBits_fifteen.symm

/-- The integer 0 converted is the word of 0.0. -/
theorem sitofp_zero : FloatOps.sitofp (F := Ideal) .f32 (0#32 : BitVec 32) = Ideal.ofBits .f32 0x00000000#32 :=
  toInt_zero.trans Ideal.ofBits_zero_f32.symm

/-- The quantised entry at index I of the reshaped array. -/
theorem v22_at (x1 : (⟨S4096x11008, .f32⟩ : BufTy).Contents (Elt Ideal)) (I : S704512x64.Idx) :
    val_main_v22 (F := Ideal) x1 I
      = fq (val_main_v1 (F := Ideal) x1 (idx_main_v2 (idx_main_v21 I))) (val_main_v3 (F := Ideal) x1 (idx_main_v4 (idx_main_v21 I)))
          (val_main_v0 (F := Ideal) x1 I) := by
  rw [val_main_v22_apply, val_main_v20_apply, val_main_v21_apply, val_main_v19_apply, val_main_v18_apply,
    val_main_call2_v4_apply, val_main_call2_v2_apply, val_main_call2_v1_apply, val_main_v17_apply, val_main_v16_apply,
    val_main_v15_apply, val_main_v14_apply, val_main_v13_apply, val_main_call2_v3_apply, val_main_call2_v0_apply,
    val_main_c_3_apply, val_main_c_apply, sitofp_fifteen, sitofp_zero, v9_at, v12_at]
  rfl

/-! The second reshape and the contraction. -/

/-- The dequantised weight at (n, j) is entry j of row n of the matrix after group-wise quantisation: the group of j is
    reshaped row n·172 + j / 64, because 11008 = 172 · 64. -/
theorem v23_at (x1 : (⟨S4096x11008, .f32⟩ : BufTy).Contents (Elt Ideal)) (n : Fin 4096) (j : Fin 11008) :
    val_main_v23 (F := Ideal) x1 (ix2 n j) = qrow (rowOf (A := 4096) (B := 11008) x1 n) j.val := by
  have hn := n.isLt
  have hj := j.isLt
  have hR : n.val * 172 + j.val / 64 < 704512 := by omega
  have hg : j.val / 64 < 172 := by omega
  have he : j.val % 64 < 64 := by omega
  have e2 : idx_main_v2 (idx_main_v21 (idx_main_v23 (ix2 n j))) = ix1 (⟨n.val * 172 + j.val / 64, hR⟩ : Fin 704512) := by
    funext a
    match a with
    | ⟨0, _⟩ => apply Fin.ext; show (n.val * 11008 + j.val) / 64 = n.val * 172 + j.val / 64; omega
  have e4 : idx_main_v4 (idx_main_v21 (idx_main_v23 (ix2 n j))) = ix1 (⟨n.val * 172 + j.val / 64, hR⟩ : Fin 704512) := by
    funext a
    match a with
    | ⟨0, _⟩ => apply Fin.ext; show (n.val * 11008 + j.val) / 64 = n.val * 172 + j.val / 64; omega
  have e0 : idx_main_v23 (ix2 n j) = ix2 (⟨n.val * 172 + j.val / 64, hR⟩ : Fin 704512) (⟨j.val % 64, he⟩ : Fin 64) := by
    funext a
    match a with
    | ⟨0, _⟩ => apply Fin.ext; show (n.val * 11008 + j.val) / 64 = n.val * 172 + j.val / 64; omega
    | ⟨1, _⟩ => apply Fin.ext; show (n.val * 11008 + j.val) % 64 = j.val % 64; omega
  rw [val_main_v23_apply, v22_at, e2, e4, e0, v1_at x1 n ⟨j.val / 64, hg⟩ hR, v3_at x1 n ⟨j.val / 64, hg⟩ hR,
    v0_at x1 n ⟨j.val / 64, hg⟩ ⟨j.val % 64, he⟩ hR]
  unfold qrow
  have hs : 64 * (j.val / 64) + j.val % 64 = j.val := by omega
  show fq (lo (rowOf (A := 4096) (B := 11008) x1 n) (64 * (j.val / 64))) (hi (rowOf (A := 4096) (B := 11008) x1 n) (64 * (j.val / 64)))
      (rowOf (A := 4096) (B := 11008) x1 n (64 * (j.val / 64) + j.val % 64)) = _
  rw [hs]

/-- The reference program computes the layer over the quantised weight. -/
theorem ref_eq_G (x0 : (⟨S1x512x11008, .f32⟩ : BufTy).Contents (Elt Ideal)) (x1 : (⟨S4096x11008, .f32⟩ : BufTy).Contents (Elt Ideal))
    (x2 : (⟨S4096, .f32⟩ : BufTy).Contents (Elt Ideal)) :
    val_main_v27 (F := Ideal) x0 x1 x2 = Cert.QLin.G x0 x1 x2 := by
  funext i
  obtain ⟨a, p, q, rfl⟩ : ∃ (a : Fin 1) (p : Fin 512) (q : Fin 4096), i = ix3 a p q := ⟨i 0, i 1, i 2, eq_ix3 i⟩
  show val_main_v27 (F := Ideal) x0 x1 x2 (ix3 a p q) = out x0 x1 x2 p q
  rw [val_main_v27_apply, val_main_v24_apply, val_main_v26_apply, val_main_v25_apply]
  unfold out
  refine congrArg₂ (· + ·) ?_ ?_
  · refine Finset.sum_congr rfl fun k _ => ?_
    have el : lidx_main_v24 (ix3 a p q) k = ix3 (0 : Fin 1) p k := by
      funext c
      match c with
      | ⟨0, _⟩ => apply Fin.ext; show a.val = 0; omega
      | ⟨1, _⟩ => rfl
      | ⟨2, _⟩ => rfl
    have er : ridx_main_v24 (ix3 a p q) k = ix2 q k := by
      funext c
      match c with
      | ⟨0, _⟩ => rfl
      | ⟨1, _⟩ => rfl
    rw [el, er, v23_at]
  · refine congrArg x2 ?_
    funext c
    match c with
    | ⟨0, _⟩ => rfl

end Cert.QLin.Ref
end
-- ==== Proof.Body.lean ====
/-
  The kernel body's result as a pure function of the three input blocks, at any float instance.

  The body carries a [512, 128] accumulator through 43 trips. Trip k loads columns 256k … 256k+255 of the weight
  block and of the x block and yields the accumulator plus the product of the x chunk with the dequantised weight
  chunk; after the last trip the bias row is added and the sum is stored over the whole output block. So the block
  written is (bias added to) the 43-fold iterate of the trip's yield from the zero accumulator.
-/
import proofs.«167469_j43654047597182_1_alg».proof.Proof.Gen.KernelIdeal.Frame
import Idealize.ShloMosaic.Lib.WholeRead
import Idealize.ShloMosaic.Lib.Pipeline.Value

set_option maxRecDepth 16384

noncomputable section

namespace Cert.QLin.Body

open Idealize.ShloMosaic Idealize.ShloMosaic.TcCoe Idealize.SL.Sem
open Cert.KernelIdeal Cert.KernelIdeal.Gen

variable {F : FTy → Type} [FloatOps F]

/-- The loop makes 43 trips. -/
theorem trips_eq : k0_t1_loop.trips = 43 := by decide

/-- Columns 256k … 256k+255 of a [128, 11008] weight block: what trip `k` loads of it. -/
def wchunk (x1 : Vec F S128x11008 .f32) (k : Fin k0_t1_loop.trips) : Vec F S128x256 .f32 :=
  fun y => x1 ((Rect.unit (s := S128x11008) (k0_off1 k) S128x256.size (k0_off1_inb k)).toLoadRect.idx y)

/-- Columns 256k … 256k+255 of the [512, 11008] block of x: what trip `k` loads of it. -/
def xchunk (x0 : Vec F S512x11008 .bf16) (k : Fin k0_t1_loop.trips) : Vec F S512x256 .bf16 :=
  fun y => x0 ((Rect.unit (s := S512x11008) (k0_off2 k) S512x256.size (k0_off2_inb k)).toLoadRect.idx y)

/-- One trip yields the accumulator updated by the two chunks it loads. -/
theorem trip_eq (c : Dev nD) (i : grid0.Coords) (arg1 : Memref sig .tc .vmem S512x11008 .bf16) (harg1 : arg1.IsWhole)
    (arg2 : Memref sig .tc .vmem S128x11008 .f32) (harg2 : arg2.IsWhole) (arg3 : Memref sig .tc .vmem S1x128 .f32)
    (harg3 : arg3.IsWhole) (arg4 : Memref sig .tc .vmem S512x128 .f32) (harg4 : arg4.IsWhole)
    (x0 : Vec F S512x11008 .bf16) (x1 : Vec F S128x11008 .f32) (k : Fin k0_t1_loop.trips) (acc : FVec F S512x128 .f32) :
    tripR_k0_t1 (F := F) Variants.none c none i arg1 harg1 arg2 harg2 arg3 harg3 arg4 harg4 (harg1.unread x0) (harg2.unread x1) k acc
      = k0_pay2 acc (wchunk x1 k) (xchunk x0 k) := by
  unfold tripR_k0_t1 trip_k0_t1
  dsimp only
  have e1 : View.readAt (Elt F) arg2.view (Rect.unit (s := S128x11008) (k0_off1 k) S128x256.size (k0_off1_inb k)).toLoadRect
      (harg2.unread x1) = wchunk x1 k := funext fun y => harg2.readAt_unread x1 _ y
  have e2 : View.readAt (Elt F) arg1.view (Rect.unit (s := S512x11008) (k0_off2 k) S512x256.size (k0_off2_inb k)).toLoadRect
      (harg1.unread x0) = xchunk x0 k := funext fun y => harg1.readAt_unread x0 _ y
  rw [e1, e2]

/-- The accumulator before trip `n`: zero, then one update per trip. -/
def accAt (x0 : Vec F S512x11008 .bf16) (x1 : Vec F S128x11008 .f32) : ℕ → FVec F S512x128 .f32
  | 0 => k0_pay1
  | n + 1 => if h : n < k0_t1_loop.trips then k0_pay2 (accAt x0 x1 n) (wchunk x1 ⟨n, h⟩) (xchunk x0 ⟨n, h⟩) else accAt x0 x1 n

/-- The value the loop carries before trip `n` is that iterate. -/
theorem carried_eq (c : Dev nD) (i : grid0.Coords) (arg1 : Memref sig .tc .vmem S512x11008 .bf16) (harg1 : arg1.IsWhole)
    (arg2 : Memref sig .tc .vmem S128x11008 .f32) (harg2 : arg2.IsWhole) (arg3 : Memref sig .tc .vmem S1x128 .f32)
    (harg3 : arg3.IsWhole) (arg4 : Memref sig .tc .vmem S512x128 .f32) (harg4 : arg4.IsWhole)
    (x0 : Vec F S512x11008 .bf16) (x1 : Vec F S128x11008 .f32) (n : ℕ) :
    st_k0_t1 (F := F) Variants.none c none i arg1 harg1 arg2 harg2 arg3 harg3 arg4 harg4 (harg1.unread x0) (harg2.unread x1) k0_pay1 n
      = accAt x0 x1 n := by
  induction n with
  | zero => rfl
  | succ n ih =>
    rw [st_k0_t1.eq_2, accAt]
    unfold st_k0_t1Step
    rw [ih]
    by_cases h : n < k0_t1_loop.trips
    · rw [dif_pos h, dif_pos h, trip_eq]
    · rw [dif_neg h, dif_neg h]

/-- The zero offsets of a whole-block access. -/
theorem off_zero2 : (![0, 0] : Fin 2 → ℕ) = fun _ => 0 := by
  funext a; fin_cases a <;> rfl

/-- The block the body writes: the bias row added to the accumulator after the last trip. -/
theorem out_eq (c : Dev nD) (i : grid0.Coords) (arg1 : Memref sig .tc .vmem S512x11008 .bf16) (harg1 : arg1.IsWhole)
    (arg2 : Memref sig .tc .vmem S128x11008 .f32) (harg2 : arg2.IsWhole) (arg3 : Memref sig .tc .vmem S1x128 .f32)
    (harg3 : arg3.IsWhole) (arg4 : Memref sig .tc .vmem S512x128 .f32) (harg4 : arg4.IsWhole)
    (x0 : Vec F S512x11008 .bf16) (x1 : Vec F S128x11008 .f32) (x2 : Vec F S1x128 .f32) :
    out0_A_3 c i arg1 harg1 arg2 harg2 arg3 harg3 arg4 harg4 x0 x1 x2 = k0_pay3 (accAt x0 x1 k0_t1_loop.trips) x2 := by
  unfold out0_A_3
  rw [View.read_writes_eq_canon _ _ _ (cover0_A_3 c i arg1 harg1 arg2 harg2 arg3 harg3 arg4 harg4 x0 x1 x2)]
  unfold kernelRun0_A
  dsimp only
  rw [View.canon_unit_zero off_zero2, carried_eq]
  simp only [View.readAt_eq_ld, harg3.read_unread, View.ld_unit_zero (S := S1x128) off_zero2]

end Cert.QLin.Body

end
-- ==== Proof.LibDotT.lean ====
/-
  A matrix product against a transposed right operand, read at an entry. For the dimension numbers "contract the left
  operand's columns with the right operand's columns, no batch axis", the vector unit's product into a zero
  accumulator is, at entry (r, c) and over the extended reals, the sum over k of x(r, k) · w(c, k).
-/
import Idealize.ShloMosaic.PureOps.Ideal
import Idealize.ShloMosaic.PureOps.Ideal.Laws
import Idealize.ShloMosaic.Lib.ValueIdx

noncomputable section

open scoped BigOperators

namespace Cert.LibDotT

open Idealize.ShloMosaic Idealize.ShloMosaic.ValueIdx

/-! ## The four coordinates of the operand indices

  With the left operand's rows the only free left axis, the right operand's rows the only free right axis and one
  shared axis (each operand's columns), the left operand is read at (row of the entry, shared coordinate) and the
  right operand at (column of the entry, shared coordinate). Each of the four coordinates is its own statement, at
  the literal axis. -/

section Axes

variable {R K C : Nat} (d : DotDims ⟨2, ![R, K]⟩ ⟨2, ![C, K]⟩ ⟨2, ![R, C]⟩)

/-- One shared axis. -/
theorem rank_contr_one (hl : d.lhsContracting = [1]) : d.contr.rank = 1 := by
  rw [d.rank_contr, hl]; rfl

/-- The shared axis has the left operand's column count. -/
theorem size_contr_zero (hl : d.lhsContracting = [1]) :
    d.contr.size ⟨0, by rw [rank_contr_one d hl]; exact Nat.one_pos⟩ = K := by
  have h := d.size_contr 0 (by rw [hl]; exact Nat.one_pos)
  rw [h]
  have h1 : d.lhsContracting[0]'(by rw [hl]; exact Nat.one_pos) = (1 : Fin 2) := by simp [hl]
  rw [h1]; rfl

/-- The left operand's row coordinate is the entry's row. -/
theorem lhs_axis0 (hln : d.lhsNonContracting = [0]) (hlb : d.lhsBatch = [])
    (j : (⟨2, ![R, C]⟩ : Shape).Idx) (k : d.contr.Idx) : (d.lhsIdx j k 0 : ℕ) = (j 0 : ℕ) := by
  unfold DotDims.lhsIdx
  rw [dif_neg (by rw [hlb]; exact List.not_mem_nil), dif_pos (by rw [hln]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The left operand's column coordinate is the shared coordinate. -/
theorem lhs_axis1 (hl : d.lhsContracting = [1]) (j : (⟨2, ![R, C]⟩ : Shape).Idx) (k : d.contr.Idx) :
    (d.lhsIdx j k 1 : ℕ) = (k ⟨0, by rw [rank_contr_one d hl]; exact Nat.one_pos⟩ : ℕ) :=
  d.lhsIdx_val_of_single hl j k

/-- The right operand's row coordinate is the entry's column. -/
theorem rhs_axis0 (hln : d.lhsNonContracting = [0]) (hrn : d.rhsNonContracting = [0]) (hlb : d.lhsBatch = [])
    (hrb : d.rhsBatch = []) (j : (⟨2, ![R, C]⟩ : Shape).Idx) (k : d.contr.Idx) : (d.rhsIdx j k 0 : ℕ) = (j 1 : ℕ) := by
  unfold DotDims.rhsIdx
  rw [dif_neg (by rw [hrb]; exact List.not_mem_nil), dif_pos (by rw [hrn]; exact List.mem_singleton.mpr rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The right operand's column coordinate is the shared coordinate. -/
theorem rhs_axis1 (hl : d.lhsContracting = [1]) (hr : d.rhsContracting = [1]) (j : (⟨2, ![R, C]⟩ : Shape).Idx)
    (k : d.contr.Idx) : (d.rhsIdx j k 1 : ℕ) = (k ⟨0, by rw [rank_contr_one d hl]; exact Nat.one_pos⟩ : ℕ) :=
  d.rhsIdx_val_of_single hr j k

end Axes

/-- The contraction sum of a product against a transposed right operand, re-indexed by the shared axis's
    coordinate: the left operand is read at (r, k), the right one at (c, k). -/
theorem contr_sum_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (x : FVec Ideal ⟨2, ![R, K]⟩ φ₁) (w : FVec Ideal ⟨2, ![C, K]⟩ φ₂) (r : Fin R) (c : Fin C) :
    (∑ k : d.contr.Idx, x (d.lhsIdx (ix2 r c) k) * w (d.rhsIdx (ix2 r c) k)) = ∑ k : Fin K, x (ix2 r k) * w (ix2 c k) := by
  rw [← Equiv.sum_comp (contrEquiv1 d K (rank_contr_one d hl) (size_contr_zero d hl)).symm]
  refine Finset.sum_congr rfl fun k _ => ?_
  have hk := contrEquiv1_symm_val d K (rank_contr_one d hl) (size_contr_zero d hl) k
  have hx : d.lhsIdx (ix2 r c) ((contrEquiv1 d K (rank_contr_one d hl) (size_contr_zero d hl)).symm k) = ix2 r k := by
    funext a
    match a with
    | ⟨0, _⟩ => exact Fin.ext (lhs_axis0 d hln hlb _ _)
    | ⟨1, _⟩ => exact Fin.ext ((lhs_axis1 d hl _ _).trans hk)
  have hw : d.rhsIdx (ix2 r c) ((contrEquiv1 d K (rank_contr_one d hl) (size_contr_zero d hl)).symm k) = ix2 c k := by
    funext a
    match a with
    | ⟨0, _⟩ => exact Fin.ext (rhs_axis0 d hln hrn hlb hrb _ _)
    | ⟨1, _⟩ => exact Fin.ext ((rhs_axis1 d hl hr _ _).trans hk)
  rw [hx, hw]

/-- The vector unit's product against a transposed right operand into the zero accumulator, at entry (r, c). -/
theorem matmul_zero_at_T {R K C : Nat} {φ₁ φ₂ : FTy} (d : DotDims ⟨2, ![R, K]⟩ ⟨2, ![C, K]⟩ ⟨2, ![R, C]⟩)
    (hl : d.lhsContracting = [1]) (hr : d.rhsContracting = [1]) (hln : d.lhsNonContracting = [0])
    (hrn : d.rhsNonContracting = [0]) (hlb : d.lhsBatch = []) (hrb : d.rhsBatch = [])
    (prec : Option ContractPrecision) (x : FVec Ideal ⟨2, ![R, K]⟩ φ₁) (w : FVec Ideal ⟨2, ![C, K]⟩ φ₂) (r : Fin R) (c : Fin C) :
    FloatOps.matmul d prec x w (constant ⟨2, ![R, C]⟩ .f32 0x00000000#32) (ix2 r c) = ∑ k : Fin K, x (ix2 r k) * w (ix2 c k) := by
  rw [Ideal.matmul_constant_zero_apply]
  exact contr_sum_T d hl hr hln hrn hlb hrb x w r c

end Cert.LibDotT

end
-- ==== Proof.Payload.lean ====
/-
  The three pure values the kernel's body computes, read at one entry.

  The first is the zero accumulator. The third adds the bias row to every row of the accumulated block. The second
  is one step of the accumulation over a chunk of 256 input features: the chunk of the weight is cut into groups of
  64 entries, each group is quantised to sixteen levels from its own smallest and largest entry and mapped back, and
  the product of the activations' chunk with the transposed result is added to the accumulator. Read at entry
  (p, q), that step adds the sum over the chunk's 256 positions k of x(p, k) times the quantised weight row q at k.
-/
import proofs.«167469_j43654047597182_1_alg».proof.Proof.Gen.KernelIdeal.Skeleton
import proofs.«167469_j43654047597182_1_alg».proof.Proof.Spec
import proofs.«167469_j43654047597182_1_alg».proof.Proof.LibDotT
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section
open scoped BigOperators
namespace Cert.QLin.Pay
open Idealize.ShloMosaic Idealize.ShloMosaic.ValueIdx Cert.KernelIdeal Cert.KernelIdeal.Gen

/-! ## The zero accumulator and the bias -/

theorem pay1_apply (p : Fin 512) (q : Fin 128) : k0_pay1 (F := Ideal) (ix2 p q) = 0 := by
  show Ideal.ofBits .f32 0x00000000#32 = 0
  exact Ideal.ofBits_zero_f32

theorem pay3_apply (v2 : FVec Ideal S512x128 .f32) (v3 : Vec Ideal S1x128 .f32) (p : Fin 512) (q : Fin 128) :
    k0_pay3 (F := Ideal) v2 v3 (ix2 p q) = v2 (ix2 p q) + v3 (ix2 (0 : Fin 1) q) := by
  show v2 (ix2 p q)
      + broadcastTo S512x128 (shapeCast S1x128 v3 shapeCasts_S1x128_S1x128) broadcasts_S1x128_S512x128 (ix2 p q) = _
  rw [broadcastTo_1b_ab_apply, shapeCast_self]

/-! ## The chunk cut into groups -/

/-- The weight chunk with each row cut into four groups of 64. -/
def grp (v11 : Vec Ideal S128x256 .f32) : FVec Ideal S128x4x64 .f32 :=
  shapeCast S128x4x64 v11 shapeCasts_S128x256_S128x4x64

/-- Entry e of group g of row q is entry 64 g + e of the row. -/
theorem grp_apply (v11 : Vec Ideal S128x256 .f32) (q : Fin 128) (g : Fin 4) (e : Fin 64) :
    grp v11 (ix3 q g e) = Cert.QLin.rowOf v11 q (64 * g.val + e.val) := by
  have hlt : 64 * g.val + e.val < 256 := by have := g.isLt; have := e.isLt; omega
  rw [Cert.QLin.rowOf_lt v11 q _ hlt]
  refine shapeCast_apply v11 shapeCasts_S128x256_S128x4x64 (ix3 q g e) (ix2 q ⟨64 * g.val + e.val, hlt⟩) ?_
  rw [Shape.rowMajor_val_three, Shape.rowMajor_val_two]
  show q.val * 256 + (64 * g.val + e.val) = (q.val * 4 + g.val) * 64 + e.val
  omega

/-! ## The smallest and the largest entry of a group -/

/-- A reduction by minimum along one axis is the fold of min over that axis's coordinates, from the starting word's
    value. -/
theorem minimumf_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- Over group (q, g), the entry with coordinate e on the reduced axis is (q, g, e). -/
theorem lift_grp (q : Fin 128) (g : Fin 4) (e : Fin 64) :
    reduces_S128x4x64_S128x4.lift (ix2 q g) e = ix3 q g e := by
  funext c
  apply Fin.ext
  refine (Shape.Reduces.lift_val reduces_S128x4x64_S128x4 (ix2 q g) e c).trans ?_
  match c with
  | ⟨0, _⟩ => rfl
  | ⟨1, _⟩ => rfl
  | ⟨2, _⟩ => rfl

/-- The grouped chunk at that entry is entry 64 g + e of row q. -/
theorem grp_lift (v11 : Vec Ideal S128x256 .f32) (q : Fin 128) (g : Fin 4) (e : Fin 64) :
    grp v11 (reduces_S128x4x64_S128x4.lift (ix2 q g) e) = Cert.QLin.rowOf v11 q (64 * g.val + e.val) :=
  (congrArg (grp v11) (lift_grp q g e)).trans (grp_apply v11 q g e)

/-- The minimum over group g of row q. -/
theorem min_apply (v11 : Vec Ideal S128x256 .f32) (q : Fin 128) (g : Fin 4) :
    multiReduction .minimumf [2] S128x4 (grp v11) 0x7F800000#32 reduces_S128x4x64_S128x4 (.inl rfl) rfl (ix2 q g)
      = Cert.QLin.lo (Cert.QLin.rowOf v11 q) (64 * g.val) := by
  refine (minimumf_single (grp v11) 0x7F800000#32 reduces_S128x4x64_S128x4 (.inl rfl) rfl (ix2 q g)).trans ?_
  unfold Cert.QLin.lo
  refine Finset.fold_congr fun e _ => ?_
  exact grp_lift v11 q g e

/-- The maximum over group g of row q. -/
theorem max_apply (v11 : Vec Ideal S128x256 .f32) (q : Fin 128) (g : Fin 4) :
    multiReduction .maximumf [2] S128x4 (grp v11) 0xFF800000#32 reduces_S128x4x64_S128x4 (.inl rfl) rfl (ix2 q g)
      = Cert.QLin.hi (Cert.QLin.rowOf v11 q) (64 * g.val) := by
  refine (Ideal.multiReduction_maximumf_single (grp v11) 0xFF800000#32 reduces_S128x4x64_S128x4 (.inl rfl) rfl
    (ix2 q g)).trans ?_
  unfold Cert.QLin.hi
  refine Finset.fold_congr fun e _ => ?_
  exact grp_lift v11 q g e

/-! ## Step and zero point of a group -/

/-- The groups' minima, one per (row, group), with a unit axis behind. -/
def mn (v11 : Vec Ideal S128x256 .f32) : FVec Ideal S128x4x1 .f32 :=
  shapeCast S128x4x1
    (multiReduction .minimumf [2] S128x4 (grp v11) 0x7F800000#32 reduces_S128x4x64_S128x4 (.inl rfl) rfl)
    shapeCasts_S128x4_S128x4x1

/-- The groups' maxima, likewise. -/
def mx (v11 : Vec Ideal S128x256 .f32) : FVec Ideal S128x4x1 .f32 :=
  shapeCast S128x4x1
    (multiReduction .maximumf [2] S128x4 (grp v11) 0xFF800000#32 reduces_S128x4x64_S128x4 (.inl rfl) rfl)
    shapeCasts_S128x4_S128x4x1

/-- A [128, 4] array with a unit axis added behind reads, at (q, g, 0), the array at (q, g). -/
theorem unit_apply (x : FVec Ideal S128x4 .f32) (q : Fin 128) (g : Fin 4) (u : Fin 1) :
    shapeCast S128x4x1 x shapeCasts_S128x4_S128x4x1 (ix3 q g u) = x (ix2 q g) := by
  refine shapeCast_apply x shapeCasts_S128x4_S128x4x1 (ix3 q g u) (ix2 q g) ?_
  rw [Shape.rowMajor_val_three, Shape.rowMajor_val_two]
  show q.val * 4 + g.val = (q.val * 4 + g.val) * 1 + u.val
  have := u.isLt
  omega

theorem mn_apply (v11 : Vec Ideal S128x256 .f32) (q : Fin 128) (g : Fin 4) (u : Fin 1) :
    mn v11 (ix3 q g u) = Cert.QLin.lo (Cert.QLin.rowOf v11 q) (64 * g.val) :=
  (unit_apply _ q g u).trans (min_apply v11 q g)

theorem mx_apply (v11 : Vec Ideal S128x256 .f32) (q : Fin 128) (g : Fin 4) (u : Fin 1) :
    mx v11 (ix3 q g u) = Cert.QLin.hi (Cert.QLin.rowOf v11 q) (64 * g.val) :=
  (unit_apply _ q g u).trans (max_apply v11 q g)

/-- The groups' steps: max (largest − smallest) ε / 15. -/
def stp (v11 : Vec Ideal S128x256 .f32) : FVec Ideal S128x4x1 .f32 :=
  divf (maximumf (subf (mx v11) (mn v11)) (broadcast S128x4x1 (Scalar.ofBits (F := Ideal) .f32 0x3727C5AC#32)))
    (broadcast S128x4x1 (Scalar.ofBits (F := Ideal) .f32 0x41700000#32))

theorem stp_apply (v11 : Vec Ideal S128x256 .f32) (q : Fin 128) (g : Fin 4) (u : Fin 1) :
    stp v11 (ix3 q g u)
      = Cert.QLin.step (Cert.QLin.lo (Cert.QLin.rowOf v11 q) (64 * g.val)) (Cert.QLin.hi (Cert.QLin.rowOf v11 q) (64 * g.val)) := by
  show Ideal.div (max (mx v11 (ix3 q g u) - mn v11 (ix3 q g u)) (Ideal.ofBits .f32 0x3727C5AC#32))
      (Ideal.ofBits .f32 0x41700000#32) = _
  rw [mx_apply, mn_apply]
  rfl

/-- The groups' zero points: round ((0 − smallest) / step). -/
def zp (v11 : Vec Ideal S128x256 .f32) : FVec Ideal S128x4x1 .f32 :=
  roundeven (divf (subf (broadcast S128x4x1 (Scalar.ofBits (F := Ideal) .f32 0x00000000#32)) (mn v11)) (stp v11))

theorem zp_apply (v11 : Vec Ideal S128x256 .f32) (q : Fin 128) (g : Fin 4) (u : Fin 1) :
    zp v11 (ix3 q g u)
      = Cert.QLin.zpt (Cert.QLin.lo (Cert.QLin.rowOf v11 q) (64 * g.val)) (Cert.QLin.hi (Cert.QLin.rowOf v11 q) (64 * g.val)) := by
  show Ideal.liftRound Ideal.roundHalfEven
      (Ideal.div (Ideal.ofBits .f32 0x00000000#32 - mn v11 (ix3 q g u)) (stp v11 (ix3 q g u))) = _
  rw [mn_apply, stp_apply, Ideal.ofBits_zero_f32, Cert.QLin.zero_sub_ereal]
  rfl

/-- A per-group value spread over the group's 64 entries reads, at (q, g, e), the value of group (q, g). -/
theorem spread_apply (x : FVec Ideal S128x4x1 .f32) (q : Fin 128) (g : Fin 4) (e : Fin 64) :
    broadcastTo S128x4x64 x broadcasts_S128x4x1_S128x4x64 (ix3 q g e) = x (ix3 q g (0 : Fin 1)) := by
  refine broadcastTo_apply x broadcasts_S128x4x1_S128x4x64 (ix3 q g e) (ix3 q g (0 : Fin 1)) fun a => ?_
  match a with
  | ⟨0, _⟩ => rfl
  | ⟨1, _⟩ => rfl
  | ⟨2, _⟩ => rfl

/-! ## The quantised chunk -/

/-- The grouped chunk quantised to sixteen levels and mapped back. -/
def dq (v11 : Vec Ideal S128x256 .f32) : FVec Ideal S128x4x64 .f32 :=
  mulf
    (subf
      (minimumf (broadcast S128x4x64 (Scalar.ofBits (F := Ideal) .f32 0x41700000#32))
        (maximumf (broadcast S128x4x64 (Scalar.ofBits (F := Ideal) .f32 0x00000000#32))
          (addf (roundeven (divf (grp v11) (broadcastTo S128x4x64 (stp v11) broadcasts_S128x4x1_S128x4x64)))
            (broadcastTo S128x4x64 (zp v11) broadcasts_S128x4x1_S128x4x64))))
      (broadcastTo S128x4x64 (zp v11) broadcasts_S128x4x1_S128x4x64))
    (broadcastTo S128x4x64 (stp v11) broadcasts_S128x4x1_S128x4x64)

theorem dq_apply (v11 : Vec Ideal S128x256 .f32) (q : Fin 128) (g : Fin 4) (e : Fin 64) :
    dq v11 (ix3 q g e)
      = Cert.QLin.fq (Cert.QLin.lo (Cert.QLin.rowOf v11 q) (64 * g.val)) (Cert.QLin.hi (Cert.QLin.rowOf v11 q) (64 * g.val))
          (Cert.QLin.rowOf v11 q (64 * g.val + e.val)) := by
  show (min (Ideal.ofBits .f32 0x41700000#32)
        (max (Ideal.ofBits .f32 0x00000000#32)
          (Ideal.liftRound Ideal.roundHalfEven
              (Ideal.div (grp v11 (ix3 q g e)) (broadcastTo S128x4x64 (stp v11) broadcasts_S128x4x1_S128x4x64 (ix3 q g e)))
            + broadcastTo S128x4x64 (zp v11) broadcasts_S128x4x1_S128x4x64 (ix3 q g e)))
        - broadcastTo S128x4x64 (zp v11) broadcasts_S128x4x1_S128x4x64 (ix3 q g e))
      * broadcastTo S128x4x64 (stp v11) broadcasts_S128x4x1_S128x4x64 (ix3 q g e) = _
  rw [spread_apply, spread_apply, stp_apply, zp_apply, grp_apply]
  rfl

/-- The quantised chunk back as [128, 256], in the narrower format. -/
def wq (v11 : Vec Ideal S128x256 .f32) : FVec Ideal S128x256 .bf16 :=
  truncf .bf16 (shapeCast S128x256 (dq v11) shapeCasts_S128x4x64_S128x256) bitsLt_bf16_f32

/-- Entry (q, k) of the quantised chunk is entry k of row q, quantised with its group. -/
theorem wq_apply (v11 : Vec Ideal S128x256 .f32) (q : Fin 128) (k : Fin 256) :
    wq v11 (ix2 q k) = Cert.QLin.qrow (Cert.QLin.rowOf v11 q) k.val := by
  have hg : k.val / 64 < 4 := by have := k.isLt; omega
  have he : k.val % 64 < 64 := Nat.mod_lt _ (by decide)
  have hcast : shapeCast S128x256 (dq v11) shapeCasts_S128x4x64_S128x256 (ix2 q k)
      = dq v11 (ix3 q (⟨k.val / 64, hg⟩ : Fin 4) (⟨k.val % 64, he⟩ : Fin 64)) := by
    refine shapeCast_apply (dq v11) shapeCasts_S128x4x64_S128x256 (ix2 q k) _ ?_
    rw [Shape.rowMajor_val_three, Shape.rowMajor_val_two]
    show (q.val * 4 + k.val / 64) * 64 + k.val % 64 = q.val * 256 + k.val
    omega
  show shapeCast S128x256 (dq v11) shapeCasts_S128x4x64_S128x256 (ix2 q k) = _
  rw [hcast, dq_apply]
  unfold Cert.QLin.qrow
  show Cert.QLin.fq _ _ (Cert.QLin.rowOf v11 q (64 * (k.val / 64) + k.val % 64)) = _
  rw [Nat.div_add_mod]

/-! ## One step of the accumulation -/

/-- The step as a term over the quantised chunk. -/
theorem pay2_eq (acc : FVec Ideal S512x128 .f32) (v11 : Vec Ideal S128x256 .f32) (v13 : Vec Ideal S512x256 .bf16) :
    k0_pay2 (F := Ideal) acc v11 v13
      = addf acc (FloatOps.matmul dot_S512x256_S128x256_S512x128_1_1_0_0_n_n none
          (shapeCast S512x256 v13 shapeCasts_S512x256_S512x256 : FVec Ideal S512x256 .bf16) (wq v11) (constant S512x128 .f32 0x00000000#32)) := rfl

theorem pay2_apply (acc : FVec Ideal S512x128 .f32) (v11 : Vec Ideal S128x256 .f32) (v13 : Vec Ideal S512x256 .bf16)
    (p : Fin 512) (q : Fin 128) :
    k0_pay2 (F := Ideal) acc v11 v13 (ix2 p q)
      = acc (ix2 p q) + ∑ k : Fin 256, v13 (ix2 p k) * Cert.QLin.qrow (Cert.QLin.rowOf v11 q) k.val := by
  rw [pay2_eq]
  show acc (ix2 p q) + FloatOps.matmul dot_S512x256_S128x256_S512x128_1_1_0_0_n_n none
      (shapeCast S512x256 v13 shapeCasts_S512x256_S512x256 : FVec Ideal S512x256 .bf16) (wq v11) (constant S512x128 .f32 0x00000000#32) (ix2 p q) = _
  rw [shapeCast_self]
  refine congrArg (acc (ix2 p q) + ·) ?_
  refine (Cert.LibDotT.matmul_zero_at_T dot_S512x256_S128x256_S512x128_1_1_0_0_n_n rfl rfl rfl rfl rfl rfl none
    v13 (wq v11) p q).trans ?_
  refine Finset.sum_congr rfl fun k _ => ?_
  rw [wq_apply]

end Cert.QLin.Pay
end
-- ==== Proof.PointValue.lean ====
/-
  What one grid point leaves in its output block.

  At grid point t the kernel holds all of x (as a [512, 11008] block), rows 128t … 128t+127 of the weight (a
  [128, 11008] block) and columns 128t … 128t+127 of the bias row (a [1, 128] block). Entry (p, q) of the [512, 128]
  block it writes is the sum over all 11008 columns j of x(p, j) times the fake-quantised weight block at (q, j),
  plus the bias block at (0, q).

  The body reaches this in 43 trips of 256 columns each. Trip n adds, at (p, q), the sum over its 256 columns of
  x(p, 256n + k) times the quantised chunk at (q, k); a chunk starts at a multiple of 64, so its groups are groups of
  the whole row and the chunk's quantised entry k is the row's quantised entry 256n + k. The accumulator starts at
  zero, so after the last trip it holds the sum over the 43 chunks of the sums over their columns, which is the sum
  over all 11008 columns because addition of extended reals is commutative and associative.
-/
import proofs.«167469_j43654047597182_1_alg».proof.Proof.Gen.KernelIdeal.Frame
import proofs.«167469_j43654047597182_1_alg».proof.Proof.Spec
import proofs.«167469_j43654047597182_1_alg».proof.Proof.Body
import proofs.«167469_j43654047597182_1_alg».proof.Proof.Payload
import Idealize.ShloMosaic.Lib.ValueIdx

set_option maxRecDepth 16384

noncomputable section

open scoped BigOperators

namespace Cert.QLin.Point

open Idealize.ShloMosaic Idealize.ShloMosaic.TcCoe Idealize.ShloMosaic.ValueIdx Idealize.SL.Sem
open Cert.KernelIdeal Cert.KernelIdeal.Gen
open Cert.QLin Cert.QLin.Body Cert.QLin.Pay

/-! ## Rows that agree on a group are quantised alike there -/

theorem lo_congr (row row' : ℕ → EReal) (s : ℕ) (h : ∀ e, e < 64 → row (s + e) = row' (s + e)) : lo row s = lo row' s := by
  unfold lo
  have e : (fun e : Fin 64 => row (s + e.val)) = fun e : Fin 64 => row' (s + e.val) := funext fun e => h e.val e.isLt
  rw [e]

theorem hi_congr (row row' : ℕ → EReal) (s : ℕ) (h : ∀ e, e < 64 → row (s + e) = row' (s + e)) : hi row s = hi row' s := by
  unfold hi
  have e : (fun e : Fin 64 => row (s + e.val)) = fun e : Fin 64 => row' (s + e.val) := funext fun e => h e.val e.isLt
  rw [e]

/-- The quantised entry `j` depends on the row only through the 64 entries of the group of `j`. -/
theorem qrow_congr (row row' : ℕ → EReal) (j : ℕ)
    (h : ∀ e, e < 64 → row (64 * (j / 64) + e) = row' (64 * (j / 64) + e)) : qrow row j = qrow row' j := by
  have hj : row j = row' j := by
    have h0 := h (j % 64) (Nat.mod_lt _ (by norm_num))
    rwa [Nat.div_add_mod] at h0
  unfold qrow
  rw [lo_congr row row' _ h, hi_congr row row' _ h, hj]

/-! ## The columns a trip loads -/

/-- Trip `k`'s weight chunk at (q, j) sits at row q, -/
theorem wrect_idx_0 (k : Fin k0_t1_loop.trips) (y : S128x256.Idx) :
    ((Rect.unit (s := S128x11008) (k0_off1 k) S128x256.size (k0_off1_inb k)).toLoadRect.idx y 0 : ℕ) = y 0 := by
  rw [LoadRect.idx_apply]; simp [Rect.unit, k0_off1_eq k]
/-- column 256 k + j of the block. -/
theorem wrect_idx_1 (k : Fin k0_t1_loop.trips) (y : S128x256.Idx) :
    ((Rect.unit (s := S128x11008) (k0_off1 k) S128x256.size (k0_off1_inb k)).toLoadRect.idx y 1 : ℕ) = 256 * k.val + y 1 := by
  rw [LoadRect.idx_apply]; simp [Rect.unit, k0_off1_eq k]
/-- Likewise its chunk of x: row p, -/
theorem xrect_idx_0 (k : Fin k0_t1_loop.trips) (y : S512x256.Idx) :
    ((Rect.unit (s := S512x11008) (k0_off2 k) S512x256.size (k0_off2_inb k)).toLoadRect.idx y 0 : ℕ) = y 0 := by
  rw [LoadRect.idx_apply]; simp [Rect.unit, k0_off2_eq k]
/-- column 256 k + j. -/
theorem xrect_idx_1 (k : Fin k0_t1_loop.trips) (y : S512x256.Idx) :
    ((Rect.unit (s := S512x11008) (k0_off2 k) S512x256.size (k0_off2_inb k)).toLoadRect.idx y 1 : ℕ) = 256 * k.val + y 1 := by
  rw [LoadRect.idx_apply]; simp [Rect.unit, k0_off2_eq k]

/-- Row q of trip n's weight chunk is columns 256 n … 256 n + 255 of row q of the block. -/
theorem wchunk_row (x1 : Vec Ideal S128x11008 .f32) (n : ℕ) (hn : n < k0_t1_loop.trips) (q : Fin 128) (j : ℕ) (hj : j < 256) :
    rowOf (wchunk x1 ⟨n, hn⟩) q j = rowOf x1 q (256 * n + j) := by
  have hn' : n < 43 := by rw [← trips_eq]; exact hn
  rw [rowOf_lt (wchunk x1 ⟨n, hn⟩) q j hj, rowOf_lt x1 q (256 * n + j) (by omega)]
  unfold wchunk
  congr 1
  funext a
  match a with
  | ⟨0, _⟩ => exact Fin.ext (wrect_idx_0 ⟨n, hn⟩ (ix2 q ⟨j, hj⟩))
  | ⟨1, _⟩ => exact Fin.ext (wrect_idx_1 ⟨n, hn⟩ (ix2 q ⟨j, hj⟩))

/-- Trip n's chunk of x at (p, k) is x at (p, 256 n + k). -/
theorem xchunk_at (x0 : Vec Ideal S512x11008 .bf16) (n : ℕ) (hn : n < k0_t1_loop.trips) (p : Fin 512) (k : Fin 256) :
    xchunk x0 ⟨n, hn⟩ (ix2 p k) = rowOf x0 p (256 * n + k.val) := by
  have hn' : n < 43 := by rw [← trips_eq]; exact hn
  have hk := k.isLt
  rw [rowOf_lt x0 p (256 * n + k.val) (by omega)]
  unfold xchunk
  congr 1
  funext a
  match a with
  | ⟨0, _⟩ => exact Fin.ext (xrect_idx_0 ⟨n, hn⟩ (ix2 p k))
  | ⟨1, _⟩ => exact Fin.ext (xrect_idx_1 ⟨n, hn⟩ (ix2 p k))

/-- The chunk's quantised entry k is the block row's quantised entry 256 n + k: the chunk starts at a multiple of 64. -/
theorem qchunk_at (x1 : Vec Ideal S128x11008 .f32) (n : ℕ) (hn : n < k0_t1_loop.trips) (q : Fin 128) (k : Fin 256) :
    qrow (rowOf (wchunk x1 ⟨n, hn⟩) q) k.val = qrow (rowOf x1 q) (256 * n + k.val) := by
  have hk := k.isLt
  rw [show 256 * n + k.val = 64 * (4 * n) + k.val by omega, ← qrow_shift]
  refine qrow_congr _ _ _ fun e he => ?_
  rw [wchunk_row x1 n hn q _ (by omega)]
  congr 1
  omega

/-! ## The accumulator -/

/-- Before trip n the accumulator holds, at (p, q), the sum over the first n chunks of the sums over their columns. -/
theorem accAt_apply (x0 : Vec Ideal S512x11008 .bf16) (x1 : Vec Ideal S128x11008 .f32) (n : ℕ) (hn : n ≤ 43) (p : Fin 512)
    (q : Fin 128) :
    accAt (F := Ideal) x0 x1 n (ix2 p q)
      = ∑ c ∈ Finset.range n, ∑ k : Fin 256, rowOf x0 p (256 * c + k.val) * qrow (rowOf x1 q) (256 * c + k.val) := by
  induction n with
  | zero =>
    show k0_pay1 (F := Ideal) (ix2 p q) = _
    rw [pay1_apply, Finset.range_zero, Finset.sum_empty]
  | succ n ih =>
    have hlt : n < k0_t1_loop.trips := by rw [trips_eq]; omega
    rw [accAt, dif_pos hlt, pay2_apply, ih (by omega), Finset.sum_range_succ]
    congr 1
    refine Finset.sum_congr rfl fun k _ => ?_
    rw [xchunk_at, qchunk_at]

variable (m : (ℓ : Loc nD τ sig) → Buf (Elt Ideal) ℓ)

/-- The block of x the kernel holds at point `t`: all of it. -/
abbrev xblk (c : Dev nD) (t : Fin cfg0.N) : Vec Ideal S512x11008 .bf16 := iblk m c 0 t
/-- The block of the weight at point `t`: 128 of its rows. -/
abbrev wblk (c : Dev nD) (t : Fin cfg0.N) : Vec Ideal S128x11008 .f32 := iblk m c 1 t
/-- The block of the bias row at point `t`: 128 of its columns. -/
abbrev bblk (c : Dev nD) (t : Fin cfg0.N) : Vec Ideal S1x128 .f32 := iblk m c 2 t

/-- Entry (p, q) of the block point `t` writes. -/
theorem point_value (c : Dev nD) (t : Fin cfg0.N) (p : Fin 512) (q : Fin 128) :
    outsAt0 m c t (ix2 p q)
      = (∑ j : Fin 11008, Cert.QLin.rowOf (xblk m c t) p j.val * Cert.QLin.qrow (Cert.QLin.rowOf (wblk m c t) q) j.val)
        + bblk m c t (ix2 (0 : Fin 1) q) := by
  have e : outsAt0 m c t = k0_pay3 (accAt (xblk m c t) (wblk m c t) k0_t1_loop.trips) (bblk m c t) := by
    unfold outsAt0
    exact out_eq c (grid0.coords t) (ms0_0 t) (hs0_0 t) (ms0_1 t) (hs0_1 t) (ms0_2 t) (hs0_2 t) (ms0_3 t) (hs0_3 t)
      (iblk m c 0 t) (iblk m c 1 t) (iblk m c 2 t)
  have hs : (∑ a ∈ Finset.range 43, ∑ k : Fin 256,
        rowOf (xblk m c t) p (256 * a + k.val) * qrow (rowOf (wblk m c t) q) (256 * a + k.val))
      = ∑ j : Fin 11008, rowOf (xblk m c t) p j.val * qrow (rowOf (wblk m c t) q) j.val :=
    (Finset.sum_range _).trans (sum_chunks fun j => rowOf (xblk m c t) p j * qrow (rowOf (wblk m c t) q) j)
  rw [e, pay3_apply, trips_eq, accAt_apply (xblk m c t) (wblk m c t) 43 le_rfl p q, hs]

end Cert.QLin.Point

end
-- ==== Proof.KernelRun.lean ====
/-
  From the blocks the grid writes to the array the program returns.

  The program first views x, given as [1, 512, 11008], as a [512, 11008] array (the narrowing of its entries is the
  identity on the extended reals) and the bias, given as [4096], as a [1, 4096] row. The grid then has 32 points. At
  point t it holds all of x, rows 128t … 128t+127 of the weight and columns 128t … 128t+127 of the bias row, and writes
  columns 128t … 128t+127 of a [512, 4096] array. So entry (p, q) of the block of point t is the layer at row p of x and
  output feature 128t + q, read off the arguments themselves: a row of the weight's block is a row of the weight, as
  functions of the column number. Column n of the array lies in the block of point n / 128, so
  the 32 blocks fill the array, which therefore holds the layer at every entry. Last, the array
  is viewed as [1, 512, 4096]: entry (0, p, n) is entry (p, n). The three arguments are never written.
-/
import proofs.«167469_j43654047597182_1_alg».proof.Proof.PointValue
import Idealize.ShloMosaic.Lib.Pipeline.Value
import Idealize.ShloMosaic.Lib.StableHlo.Run
import Idealize.ShloMosaic.Lib.ValueLayout

set_option maxRecDepth 16384
noncomputable section
open scoped BigOperators
namespace Cert.QLin.KRun
open Idealize.ShloMosaic Idealize.ShloMosaic.TcCoe Idealize.ShloMosaic.ValueIdx Idealize.SL.Sem
open Cert.KernelIdeal Cert.KernelIdeal.Gen

section Blocks

open Cert.QLin.Point

variable (m : (ℓ : Loc nD τ sig) → Buf (Elt Ideal) ℓ)

/-- x as the grid finds it, a [512, 11008] array. -/
abbrev xarr (c : Dev nD) : Vec Ideal S512x11008 .bf16 := V m c main_v1
/-- The weight as the grid finds it. -/
abbrev warr (c : Dev nD) : Vec Ideal S4096x11008 .f32 := V m c main_arg1
/-- The bias as the grid finds it, a [1, 4096] row. -/
abbrev barr (c : Dev nD) : Vec Ideal S1x4096 .f32 := V m c main_v2

theorem xarr_eq (c : Dev nD) : xarr m c =
    truncf (F := Ideal) .bf16 (shapeCast S512x11008 (m ((c : Thread nD τ).loc main_arg0)) shapeCasts_S1x512x11008_S512x11008) bitsLt_bf16_f32 := by
  show StableHlo.after hostOps0 (fun b => m (c, b)) (Proc.devRef .tc main_v1) = _
  after_results
  rfl

theorem xarr_apply (c : Dev nD) (p : Fin 512) (j : Fin 11008) :
    xarr m c (ix2 p j) = (m ((c : Thread nD τ).loc main_arg0) : S1x512x11008.Idx → EReal) (ix3 (0 : Fin 1) p j) := by
  rw [xarr_eq]
  exact shapeCast_1ab_ab_apply (m ((c : Thread nD τ).loc main_arg0)) shapeCasts_S1x512x11008_S512x11008 p j

theorem barr_eq (c : Dev nD) : barr m c =
    shapeCast S1x4096 (m ((c : Thread nD τ).loc main_arg2)) shapeCasts_S4096_S1x4096 := by
  show StableHlo.after hostOps0 (fun b => m (c, b)) (Proc.devRef .tc main_v2) = _
  after_results
  rfl

theorem barr_apply (c : Dev nD) (u : Fin 1) (n : Fin 4096) :
    barr m c (ix2 u n) = (m ((c : Thread nD τ).loc main_arg2) : S4096.Idx → EReal) (ix1 n) := by
  rw [barr_eq]
  refine shapeCast_apply (s := S4096) (t := S1x4096) _ _ _ _ ?_
  rw [Shape.rowMajor_val_one, Shape.rowMajor_val_two]
  have hu : u.val = 0 := by omega
  show n.val = u.val * 4096 + n.val
  rw [hu]; omega

theorem warr_eq (c : Dev nD) : warr m c = m ((c : Thread nD τ).loc main_arg1) := V_main_arg1 m c

/-- Where each window's block sits at point t: x whole, the weight's rows and the bias's and the result's columns at block t. -/
theorem idx_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The block of x at any point is x. -/
theorem xblk_apply (c : Dev nD) (t : Fin cfg0.N) (p : Fin 512) (j : Fin 11008) :
    xblk m c t (ix2 p j) = xarr m c (ix2 p j) := by
  obtain ⟨e0, e1, -⟩ := idx_facts t
  unfold xblk iblk
  rw [View.read_apply]
  show V m c main_v1 _ = V m c main_v1 _
  congr 1
  funext a
  apply Fin.ext
  match a with
  | ⟨0, _⟩ => show win0_0.index t (0 : Fin 2) * 512 + 1 * p.val = p.val; rw [e0]; omega
  | ⟨1, _⟩ => show win0_0.index t (1 : Fin 2) * 11008 + 1 * j.val = j.val; rw [e1]; omega

/-- Row q of the weight's block at point t is row 128 t + q of the weight. -/
theorem wblk_apply (c : Dev nD) (t : Fin cfg0.N) (q : Fin 128) (j : Fin 11008) (n : Fin 4096) (hn : n.val = 128 * t.val + q.val) :
    wblk m c t (ix2 q j) = warr m c (ix2 n j) := by
  obtain ⟨-, -, e0, e1, -⟩ := idx_facts t
  unfold wblk iblk
  rw [View.read_apply]
  show V m c main_arg1 _ = V m c main_arg1 _
  congr 1
  funext a
  apply Fin.ext
  match a with
  | ⟨0, _⟩ => show win0_1.index t (0 : Fin 2) * 128 + 1 * q.val = n.val; rw [e0, hn]; omega
  | ⟨1, _⟩ => show win0_1.index t (1 : Fin 2) * 11008 + 1 * j.val = j.val; rw [e1]; omega

/-- Column q of the bias's block at point t is column 128 t + q of the bias row. -/
theorem bblk_apply (c : Dev nD) (t : Fin cfg0.N) (q : Fin 128) (n : Fin 4096) (hn : n.val = 128 * t.val + q.val) :
    bblk m c t (ix2 (0 : Fin 1) q) = barr m c (ix2 (0 : Fin 1) n) := by
  obtain ⟨-, -, -, -, e0, e1, -⟩ := idx_facts t
  unfold bblk iblk
  rw [View.read_apply]
  show V m c main_v2 _ = V m c main_v2 _
  congr 1
  funext a
  apply Fin.ext
  match a with
  | ⟨0, _⟩ => show win0_2.index t (0 : Fin 2) * 1 + 1 * 0 = 0; rw [e0]
  | ⟨1, _⟩ => show win0_2.index t (1 : Fin 2) * 128 + 1 * q.val = n.val; rw [e1, hn]; omega

/-- Row p of x's block, at a column inside the array, is row p of the argument x. -/
theorem rowOf_xblk (c : Dev nD) (t : Fin cfg0.N) (p : Fin 512) (j : Fin 11008) :
    Cert.QLin.rowOf (xblk m c t) p j.val
      = (m ((c : Thread nD τ).loc main_arg0) : S1x512x11008.Idx → EReal) (ix3 (0 : Fin 1) p j) := by
  rw [Cert.QLin.rowOf_lt (xblk m c t) p j.val j.isLt]
  exact (xblk_apply m c t p j).trans (xarr_apply m c p j)

/-- Row q of the weight's block at point t is row 128 t + q of the argument weight, as functions of the column number. -/
theorem rowOf_wblk (c : Dev nD) (t : Fin cfg0.N) (q : Fin 128) (n : Fin 4096) (hn : n.val = 128 * t.val + q.val) :
    Cert.QLin.rowOf (wblk m c t) q
      = Cert.QLin.rowOf (m ((c : Thread nD τ).loc main_arg1) : S4096x11008.Idx → EReal) n := by
  funext j
  by_cases h : j < 11008
  · rw [Cert.QLin.rowOf_lt (wblk m c t) q j h,
      Cert.QLin.rowOf_lt (m ((c : Thread nD τ).loc main_arg1) : S4096x11008.Idx → EReal) n j h]
    exact (wblk_apply m c t q ⟨j, h⟩ n hn).trans (congrFun (warr_eq m c) _)
  · unfold Cert.QLin.rowOf
    rw [dif_neg h, dif_neg h]

/-- Entry (p, q) of what point t writes is the layer at row p and feature 128 t + q of the arguments. -/
theorem point_out (c : Dev nD) (t : Fin cfg0.N) (p : Fin 512) (q : Fin 128) (n : Fin 4096) (hn : n.val = 128 * t.val + q.val) :
    outsAt0 m c t (ix2 p q)
      = Cert.QLin.out (m ((c : Thread nD τ).loc main_arg0)) (m ((c : Thread nD τ).loc main_arg1)) (m ((c : Thread nD τ).loc main_arg2)) p n := by
  rw [point_value m c t p q, rowOf_wblk m c t q n hn, bblk_apply m c t q n hn, barr_apply m c (0 : Fin 1) n]
  unfold Cert.QLin.out
  congr 1
  refine Finset.sum_congr rfl fun j _ => ?_
  rw [rowOf_xblk m c t p j]

/-- The [512, 4096] array the grid leaves: entry (p, n) is the layer at row p and feature n. -/
def Gk (c : Dev nD) : Vec Ideal S512x4096 .f32 := fun i =>
  Cert.QLin.out (m ((c : Thread nD τ).loc main_arg0)) (m ((c : Thread nD τ).loc main_arg1)) (m ((c : Thread nD τ).loc main_arg2)) (i 0) (i 1)

/-- What point t writes at y is that array at (y 0, 128 t + y 1). -/
theorem point_blk (c : Dev nD) (t : Fin cfg0.N) (y : S512x128.Idx) (i : S512x4096.Idx)
    (h0 : (i 0).val = (y 0).val) (h1 : (i 1).val = 128 * t.val + (y 1).val) :
    outsAt0 m c t y = Gk m c i := by
  have e : outsAt0 m c t y = outsAt0 m c t (ix2 (y 0) (y 1)) := congrArg (outsAt0 m c t) (eq_ix2 y)
  rw [e, point_out m c t (y 0) (y 1) (i 1) h1]
  unfold Gk
  have e0 : y 0 = i 0 := Fin.ext h0.symm
  rw [e0]

/-- What point t writes back is block t of that array. -/
theorem flushed_eq (c : Dev nD) (t : Fin cfg0.N) :
    (dats m 0 c).flushed 3 t = ((cfg0.win 3).blk t).view.read (Elt Ideal) (Gk m c) := by
  show (cfg0.win 3).cut (grid0.coords t) ((dats m 0 c).after 3 t) = _
  rw [after0_3]
  obtain ⟨-, -, -, -, -, -, e0, e1⟩ := idx_facts t
  funext y
  rw [View.read_apply]
  refine point_blk m c t y _ ?_ ?_
  · show win0_3.index t (0 : Fin 2) * 512 + 1 * (y 0).val = (y 0).val
    rw [e0]; omega
  · show win0_3.index t (1 : Fin 2) * 128 + 1 * (y 1).val = 128 * t.val + (y 1).val
    rw [e1]; omega

/-- An index of the [512, 4096] array lies in point t's block iff each coordinate lies in the block's range on its axis. -/
theorem mem_blk (t : Fin cfg0.N) (i : S512x4096.Idx) :
    i ∈ ((cfg0.win 3).blk t).view.set ↔ ∀ a : Fin 2, win0_3.index t a * S512x128.size a ≤ (i a).val ∧ (i a).val < win0_3.index t a * S512x128.size a + S512x128.size a := by
  show i ∈ ((View.whole main_v3).slice (win0_3.rect t)).set ↔ _
  rw [View.set_slice_whole, Rect.mem_set_unit]
  exact Iff.rfl

/-- Every index is covered: column n lies in the block of point n / 128. -/
theorem cover (i : S512x4096.Idx) :
    ∃ t : Fin cfg0.N, (cfg0.win 3).flush t = true ∧ i ∈ ((cfg0.win 3).blk t).view.set := by
  have hi0 : (i 0).val < 512 := (i 0).isLt
  have hi1 : (i 1).val < 4096 := (i 1).isLt
  have ht : (i 1).val / 128 < cfg0.N := by rw [show cfg0.N = 32 from N_0]; omega
  obtain ⟨t, htv⟩ : ∃ t : Fin cfg0.N, t.val = (i 1).val / 128 := ⟨⟨_, ht⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    rw [e0]; omega
  | ⟨1, _⟩ =>
    show win0_3.index t (1 : Fin 2) * 128 ≤ (i 1).val ∧ (i 1).val < win0_3.index t (1 : Fin 2) * 128 + 128
    rw [e1, htv]; omega

/-- So the result array ends holding the layer at every entry. -/
theorem final (c : Dev nD) : (dats m 0 c).arrAt 3 cfg0.N = Gk m c :=
  (dats m 0 c).arrAt_eq_of_cover 3 (Gk m c) (fun t _ => flushed_eq m c t) cover

/-- The result array among the arrays the grid leaves. -/
theorem left_v3 (c : Dev nD) :
    Pipeline.withArrays spec0 c (V0 m c) (fun w => (dats m 0 c).arrAt w cfg0.N) (Proc.devRef .tc main_v3) = Gk m c :=
  (Pipeline.withArrays_arr spec0 launch0.win.arr_inj c _ _ 3).trans (final m c)

theorem tail_v4 (c : Dev nD) :
    Pipeline.afterTail₀ cfgs (dats m) 0 (V0 m) [hostOps1] c main_v4
      = shapeCast S1x512x4096 (Gk m c) shapeCasts_S512x4096_S1x512x4096 := by
  unfold Pipeline.afterTail₀
  show StableHlo.after hostOps1 _ (Proc.devRef .tc main_v4) = _
  after_results
  exact congrArg (fun v : Vec Ideal S512x4096 .f32 => shapeCast S1x512x4096 v shapeCasts_S512x4096_S1x512x4096) (left_v3 m c)

/-- Read at an index, the reshaped result is the layer's whole result. -/
theorem tail_G (c : Dev nD) :
    Pipeline.afterTail₀ cfgs (dats m) 0 (V0 m) [hostOps1] c main_v4
      = Cert.QLin.G (m ((c : Thread nD τ).loc main_arg0)) (m ((c : Thread nD τ).loc main_arg1)) (m ((c : Thread nD τ).loc main_arg2)) := by
  rw [tail_v4]
  funext i
  rw [eq_ix3 i]
  exact shapeCast_ab_1ab_apply (Gk m c) shapeCasts_S512x4096_S1x512x4096 (i 0) (i 1) (i 2)

end Blocks

/-- Every run of the program ends with the result array at the layer's whole result and the three arguments as given. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = Cert.QLin.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v4 (Pipeline.mem_restRefs_of main_v4 (by decide) (by decide))).trans (tail_G m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.QLin.KRun
end
-- ==== Proof.lean ====
/-
  A linear layer over a weight that is fake-quantised in groups of 64, computed two ways, gives one result on the
  extended reals.

  The weight w is [4096, 11008]. Each row is cut into 172 groups of 64 consecutive entries; a group with smallest
  entry l and largest entry h has the step s = max (h − l) ε / 15 and the zero point z = round (−l / s), and an entry v
  of it is replaced by (clamp (round (v / s) + z) to [0, 15] − z) · s, rounding to nearest with ties to even. The
  layer's output at (0, p, n) is the sum over the 11008 columns j of x(0, p, j) times the replaced weight at (n, j),
  plus the bias at n (Proof/Spec.lean: `G`).

  The reference flattens the weight to [704512, 64], takes each row's minimum and maximum, quantises, reshapes back and
  contracts with x in one product; row n·172 + j / 64 of the flattened weight is the group of (n, j) because
  11008 = 172 · 64, so a group never straddles a row of the weight (Proof/RefIsG.lean).

  The kernel works on 32 tiles of 128 output features. For one tile it walks the 11008 columns in 43 chunks of 256,
  quantises each [128, 256] chunk of the weight on the fly in its four groups of 64 per row, multiplies the chunk of x
  by it and accumulates, from zero, then adds the bias (Proof/Payload.lean, Proof/Body.lean). A chunk starts at a
  multiple of 64, so its groups are groups of the whole row and it is quantised as the row is; and the sum over 43
  chunks of the sums over their 256 columns is the sum over all columns, by commutativity and associativity of
  addition alone, so no finiteness of the inputs is used (Proof/PointValue.lean). The tiles fill the [512, 4096] result,
  which is then viewed as [1, 512, 4096] (Proof/KernelRun.lean).

  The same constants appear on both sides: ε as the word of 1e-5, and 15 and 0 as words in the kernel and as
  converted integers in the reference, which denote the same reals; the kernel spells −l as 0 − l.
  Nothing was rewritten in the kernel's idealization, so that claim is trivial. The two kernel frames are the
  generated ones; the reference's frame is its generated run with the result dropped.
-/
import proofs.«167469_j43654047597182_1_alg».proof.Defs
import proofs.«167469_j43654047597182_1_alg».proof.Proof.Gen.Kernel
import proofs.«167469_j43654047597182_1_alg».proof.Proof.Gen.Kernel.Skeleton
import proofs.«167469_j43654047597182_1_alg».proof.Proof.Gen.Kernel.Loops
import proofs.«167469_j43654047597182_1_alg».proof.Proof.Gen.Kernel.Launch
import proofs.«167469_j43654047597182_1_alg».proof.Proof.Gen.Kernel.Points
import proofs.«167469_j43654047597182_1_alg».proof.Proof.Gen.Kernel.Frame
import proofs.«167469_j43654047597182_1_alg».proof.Proof.Gen.KernelIdeal
import proofs.«167469_j43654047597182_1_alg».proof.Proof.Gen.KernelIdeal.Skeleton
import proofs.«167469_j43654047597182_1_alg».proof.Proof.Gen.KernelIdeal.Loops
import proofs.«167469_j43654047597182_1_alg».proof.Proof.Gen.KernelIdeal.Launch
import proofs.«167469_j43654047597182_1_alg».proof.Proof.Gen.KernelIdeal.Points
import proofs.«167469_j43654047597182_1_alg».proof.Proof.Gen.KernelIdeal.Frame
import proofs.«167469_j43654047597182_1_alg».proof.Proof.Gen.ReferenceIdeal
import proofs.«167469_j43654047597182_1_alg».proof.Proof.Gen.Pre_finite_inputs
import proofs.«167469_j43654047597182_1_alg».proof.Proof.Gen.ReferenceIdeal.Run
import proofs.«167469_j43654047597182_1_alg».proof.Proof.Gen.ReferenceIdeal.Read
import proofs.«167469_j43654047597182_1_alg».proof.Proof.Spec
import proofs.«167469_j43654047597182_1_alg».proof.Proof.RefIsG
import proofs.«167469_j43654047597182_1_alg».proof.Proof.KernelRun
import Idealize.ShloMosaic.Adequacy
import Idealize.ShloMosaic.Init

noncomputable section

namespace Cert.Proof

open Idealize.ShloMosaic Idealize.ShloMosaic.TcCoe Idealize.SL.Sem

/-- The kernel runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs to its composed term and leaves its arguments as they were; the frame forgets the term. -/
theorem frame_ri : Cert.frame_ReferenceIdeal := fun m ρ _ =>
  (θ_run Cert.ReferenceIdeal.defs _ _).mono (fun _ h c => (h c).2) (Cert.ReferenceIdeal.Value.run (F := Ideal) m ρ)

open Cert.KernelIdeal in
/-- From memories that agree on x, the weight and the bias, both programs end with the layer's function `G` of those
    three arrays in their result. -/
theorem algebraic : Cert.algebraic_KernelIdeal_ReferenceIdeal := by
  intro m ρ m' ρ' _ hagree
  refine ⟨fun c => Cert.QLin.G (m ((c.tc : Thread nD τ).loc main_arg0)) (m ((c.tc : Thread nD τ).loc main_arg1))
    (m ((c.tc : Thread nD τ).loc main_arg2)), Cert.QLin.KRun.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v27_eq, Cert.QLin.Ref.ref_eq_G, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
